-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2048 : Shape := ⟨2, ![8192, 2048]⟩
abbrev S256x1024 : Shape := ⟨2, ![256, 1024]⟩
abbrev S2048x256 : Shape := ⟨2, ![2048, 256]⟩
abbrev S256x2048 : Shape := ⟨2, ![256, 2048]⟩
abbrev S1x2048 : Shape := ⟨2, ![1, 2048]⟩
abbrev S1x1 : Shape := ⟨2, ![1, 1]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S256x1024 : S_.BroadcastsInDim S256x1024 (![] : Fin 0 → Fin S256x1024.rank)
  reducesTo_S256x1024_S_d0_1 : S256x1024.ReducesTo [0, 1] S_
  bcast_S_S2048x256 : S_.BroadcastsInDim S2048x256 (![] : Fin 0 → Fin S2048x256.rank)
  reducesTo_S2048x256_S_d0_1 : S2048x256.ReducesTo [0, 1] S_
  bcast_S_S256x2048 : S_.BroadcastsInDim S256x2048 (![] : Fin 0 → Fin S256x2048.rank)
  reducesTo_S256x2048_S_d0_1 : S256x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S1x1 : S_.BroadcastsInDim S1x1 (![] : Fin 0 → Fin S1x1.rank)
  reducesTo_S1x1_S_d0_1 : S1x1.ReducesTo [0, 1] S_

variable [Facts]

def fn_part2 {F : FTy → Type} [FloatOps F] (main_arg7 : FVec F S1x2048 .f32) (main_arg8 : FVec F S1x1 .f32) (main_arg9 : FVec F S1x1 .f32) (main_v33 : IVec S_ 1) : IVec S_ 1 :=
  let main_v34 : FVec F S1x2048 .f32 := Host.absf main_arg7
  let main_cst_12 : FVec F S_ .f32 := constant S_ .f32 0x7F800000#32
  let main_v35 : FVec F S1x2048 .f32 := broadcastInDim S1x2048 ![] bcast_S_S1x2048 main_cst_12
  let main_v36 : IVec S1x2048 1 := cmpf .olt main_v34 main_v35
  let main_c_13 : IVec S_ 1 := constantI S_ 1 1#1
  let main_v37 : IVec S_ 1 := (fun x v => Host.reduce IntOp.andi x v reducesTo_S1x2048_S_d0_1 h_S_) main_v36 main_c_13
  let main_v38 : IVec S_ 1 := andi main_v33 main_v37
  let main_v39 : FVec F S1x1 .f32 := Host.absf main_arg8
  let main_cst_14 : FVec F S_ .f32 := constant S_ .f32 0x7F800000#32
  let main_v40 : FVec F S1x1 .f32 := broadcastInDim S1x1 ![] bcast_S_S1x1 main_cst_14
  let main_v41 : IVec S1x1 1 := cmpf .olt main_v39 main_v40
  let main_c_15 : IVec S_ 1 := constantI S_ 1 1#1
  let main_v42 : IVec S_ 1 := (fun x v => Host.reduce IntOp.andi x v reducesTo_S1x1_S_d0_1 h_S_) main_v41 main_c_15
  let main_v43 : IVec S_ 1 := andi main_v38 main_v42
  let main_v44 : FVec F S1x1 .f32 := Host.absf main_arg9
  let main_cst_16 : FVec F S_ .f32 := constant S_ .f32 0x7F800000#32
  let main_v45 : FVec F S1x1 .f32 := broadcastInDim S1x1 ![] bcast_S_S1x1 main_cst_16
  let main_v46 : IVec S1x1 1 := cmpf .olt main_v44 main_v45
  let main_c_17 : IVec S_ 1 := constantI S_ 1 1#1
  let main_v47 : IVec S_ 1 := (fun x v => Host.reduce IntOp.andi x v reducesTo_S1x1_S_d0_1 h_S_) main_v46 main_c_17
  let main_v48 : IVec S_ 1 := andi main_v43 main_v47
  main_v48

def fn_part1 {F : FTy → Type} [FloatOps F] (main_arg4 : FVec F S256x2048 .f32) (main_arg5 : FVec F S2048x256 .f32) (main_arg6 : FVec F S1x2048 .f32) (main_arg7 : FVec F S1x2048 .f32) (main_arg8 : FVec F S1x1 .f32) (main_arg9 : FVec F S1x1 .f32) (main_v13 : IVec S_ 1) (main_v16 : IVec S2048x256 1) : IVec S_ 1 :=
  let main_c_5 : IVec S_ 1 := constantI S_ 1 1#1
  let main_v17 : IVec S_ 1 := (fun x v => Host.reduce IntOp.andi x v reducesTo_S2048x256_S_d0_1 h_S_) main_v16 main_c_5
  let main_v18 : IVec S_ 1 := andi main_v13 main_v17
  let main_v19 : FVec F S256x2048 .f32 := Host.absf main_arg4
  let main_cst_6 : FVec F S_ .f32 := constant S_ .f32 0x7F800000#32
  let main_v20 : FVec F S256x2048 .f32 := broadcastInDim S256x2048 ![] bcast_S_S256x2048 main_cst_6
  let main_v21 : IVec S256x2048 1 := cmpf .olt main_v19 main_v20
  let main_c_7 : IVec S_ 1 := constantI S_ 1 1#1
  let main_v22 : IVec S_ 1 := (fun x v => Host.reduce IntOp.andi x v reducesTo_S256x2048_S_d0_1 h_S_) main_v21 main_c_7
  let main_v23 : IVec S_ 1 := andi main_v18 main_v22
  let main_v24 : FVec F S2048x256 .f32 := Host.absf main_arg5
  let main_cst_8 : FVec F S_ .f32 := constant S_ .f32 0x7F800000#32
  let main_v25 : FVec F S2048x256 .f32 := broadcastInDim S2048x256 ![] bcast_S_S2048x256 main_cst_8
  let main_v26 : IVec S2048x256 1 := cmpf .olt main_v24 main_v25
  let main_c_9 : IVec S_ 1 := constantI S_ 1 1#1
  let main_v27 : IVec S_ 1 := (fun x v => Host.reduce IntOp.andi x v reducesTo_S2048x256_S_d0_1 h_S_) main_v26 main_c_9
  let main_v28 : IVec S_ 1 := andi main_v23 main_v27
  let main_v29 : FVec F S1x2048 .f32 := Host.absf main_arg6
  let main_cst_10 : FVec F S_ .f32 := constant S_ .f32 0x7F800000#32
  let main_v30 : FVec F S1x2048 .f32 := broadcastInDim S1x2048 ![] bcast_S_S1x2048 main_cst_10
  let main_v31 : IVec S1x2048 1 := cmpf .olt main_v29 main_v30
  let main_c_11 : IVec S_ 1 := constantI S_ 1 1#1
  let main_v32 : IVec S_ 1 := (fun x v => Host.reduce IntOp.andi x v reducesTo_S1x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S8192x2048 .f32) (main_arg2 : FVec F S256x1024 .f32) (main_arg3 : FVec F S2048x256 .f32) (main_arg4 : FVec F S256x2048 .f32) (main_arg5 : FVec F S2048x256 .f32) (main_arg6 : FVec F S1x2048 .f32) (main_arg7 : FVec F S1x2048 .f32) (main_arg8 : FVec F S1x1 .f32) (main_arg9 : FVec F S1x1 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S2048x256 .f32 := Host.absf main_arg3
  let main_cst_4 : FVec F S_ .f32 := constant S_ .f32 0x7F800000#32
  let main_v15 : FVec F S2048x256 .f32 := broadcastInDim S2048x256 ![] bcast_S_S2048x256 main_cst_4
  let main_v16 : IVec S2048x256 1 := cmpf .olt main_v14 main_v15
  fn_part1 (F := F) main_arg4 main_arg5 main_arg6 main_arg7 main_arg8 main_arg9 main_v13 main_v16
-- ==== Kernel.lean ====
abbrev S8192x1024 : Shape := ⟨2, ![8192, 1024]⟩
abbrev S8192x2048 : Shape := ⟨2, ![8192, 2048]⟩
abbrev S256x1024 : Shape := ⟨2, ![256, 1024]⟩
abbrev S2048x256 : Shape := ⟨2, ![2048, 256]⟩
abbrev S256x2048 : Shape := ⟨2, ![256, 2048]⟩
abbrev S1x2048 : Shape := ⟨2, ![1, 2048]⟩
abbrev S1x1 : Shape := ⟨2, ![1, 1]⟩
abbrev S1024x256 : Shape := ⟨2, ![1024, 256]⟩
abbrev S256x256 : Shape := ⟨2, ![256, 256]⟩

abbrev nBuf : Space → Nat
  | .hbm => 15
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S256x1024, .f32⟩
  | .hbm, ⟨3, _⟩ => ⟨S2048x256, .f32⟩
  | .hbm, ⟨4, _⟩ => ⟨S256x2048, .f32⟩
  | .hbm, ⟨5, _⟩ => ⟨S2048x256, .f32⟩
  | .hbm, ⟨6, _⟩ => ⟨S1x2048, .f32⟩
  | .hbm, ⟨7, _⟩ => ⟨S1x2048, .f32⟩
  | .hbm, ⟨8, _⟩ => ⟨S1x1, .f32⟩
  | .hbm, ⟨9, _⟩ => ⟨S1x1, .f32⟩
  | .hbm, ⟨10, _⟩ => ⟨S1024x256, .f32⟩
  | .hbm, ⟨11, _⟩ => ⟨S256x2048, .f32⟩
  | .hbm, ⟨12, _⟩ => ⟨S2048x256, .f32⟩
  | .hbm, ⟨13, _⟩ => ⟨S256x2048, .f32⟩
  | .hbm, ⟨14, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S1024x256, .f32⟩
  | .local _ .vmem, ⟨5, _⟩ => ⟨S256x2048, .f32⟩
  | .local _ .vmem, ⟨6, _⟩ => ⟨S2048x256, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x1, .f32⟩
  | .local _ .vmem, ⟨11, _⟩ => ⟨S1x1, .f32⟩
  | .local _ .vmem, ⟨12, _⟩ => ⟨S256x2048, .f32⟩
  | .local _ .vmem, ⟨13, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S256x1024_S1024x256_1_0 : S256x1024.Transposes [1, 0] S1024x256
  transposes_S2048x256_S256x2048_1_0 : S2048x256.Transposes [1, 0] S256x2048
  transposes_S256x2048_S2048x256_1_0 : S256x2048.Transposes [1, 0] S2048x256
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S256x2048_S256x2048 : S256x2048.ShapeCasts S256x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  broadcasts_S1x2048_S256x2048 : S1x2048.Broadcasts S256x2048
  inb_S1x1_S1x1_0_0 : ∀ a, (![0, 0] : Fin 2 → Nat) a + S1x1.size a ≤ S1x1.size a
  h_S1x1 : 0 < S1x1.numel
  broadcasts_S1x1_S256x2048 : S1x1.Broadcasts S256x2048
  dot_S256x1024_S1024x256_S256x256_1_0_0_1_n_n_wf : DotDims.WF S256x1024 S1024x256 S256x256 [1] [0] [0] [1] [] []
  dot_S256x256_S256x2048_S256x2048_1_0_0_1_n_n_wf : DotDims.WF S256x256 S256x2048 S256x2048 [1] [0] [0] [1] [] []
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x2048.size a
  hwx0_3 : ∀ i : grid0.Coords, EltTy.bits .f32 = 32 ∨ (Rect.block (s := S256x2048) S256x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x256.size a
  hwx0_4 : ∀ i : grid0.Coords, EltTy.bits .f32 = 32 ∨ (Rect.block (s := S2048x256) S2048x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S256x2048.size a
  hwx0_5 : ∀ i : grid0.Coords, EltTy.bits .f32 = 32 ∨ (Rect.block (s := S256x2048) S256x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S8192x2048.size a
  hwx0_10 : ∀ i : grid0.Coords, EltTy.bits .f32 = 32 ∨ (Rect.block (s := S8192x2048) S256x2048.size (cc0_transform_10 i) (hinb0_10 i)).WholeWords (EltTy.packing .f32)

variable [Facts₀]

def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S256x2048.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x2048 : Shape := ⟨2, ![8192, 2048]⟩
abbrev S256x1024 : Shape := ⟨2, ![256, 1024]⟩
abbrev S2048x256 : Shape := ⟨2, ![2048, 256]⟩
abbrev S256x2048 : Shape := ⟨2, ![256, 2048]⟩
abbrev S1x2048 : Shape := ⟨2, ![1, 2048]⟩
abbrev S1x1 : Shape := ⟨2, ![1, 1]⟩
abbrev S8192x256 : Shape := ⟨2, ![8192, 256]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S256x1024, .f32⟩
  | .hbm, ⟨3, _⟩ => ⟨S2048x256, .f32⟩
  | .hbm, ⟨4, _⟩ => ⟨S256x2048, .f32⟩
  | .hbm, ⟨5, _⟩ => ⟨S2048x256, .f32⟩
  | .hbm, ⟨6, _⟩ => ⟨S1x2048, .f32⟩
  | .hbm, ⟨7, _⟩ => ⟨S1x2048, .f32⟩
  | .hbm, ⟨8, _⟩ => ⟨S1x1, .f32⟩
  | .hbm, ⟨9, _⟩ => ⟨S1x1, .f32⟩
  | .hbm, ⟨10, _⟩ => ⟨S8192x256, .f32⟩
  | .hbm, ⟨11, _⟩ => ⟨S8192x2048, .f32⟩
  | .hbm, ⟨12, _⟩ => ⟨S8192x256, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S1x1, .f32⟩
  | .hbm, ⟨30, _⟩ => ⟨S1x1, .f32⟩
  | .hbm, ⟨31, _⟩ => ⟨S_, .f32⟩
  | .hbm, ⟨32, _⟩ => ⟨S1x1, .f32⟩
  | .hbm, ⟨33, _⟩ => ⟨S1x1, .f32⟩
  | .hbm, ⟨34, _⟩ => ⟨S_, .f32⟩
  | .hbm, ⟨35, _⟩ => ⟨S1x1, .f32⟩
  | .hbm, ⟨36, _⟩ => ⟨S1x1, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S1x1, .f32⟩
  | .hbm, ⟨43, _⟩ => ⟨S1x1, .f32⟩
  | .hbm, ⟨44, _⟩ => ⟨S_, .f32⟩
  | .hbm, ⟨45, _⟩ => ⟨S1x1, .f32⟩
  | .hbm, ⟨46, _⟩ => ⟨S1x1, .f32⟩
  | .hbm, ⟨47, _⟩ => ⟨S_, .f32⟩
  | .hbm, ⟨48, _⟩ => ⟨S1x1, .f32⟩
  | .hbm, ⟨49, _⟩ => ⟨S1x1, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  bcast_S_S1x1 : S_.BroadcastsInDim S1x1 (![] : Fin 0 → Fin S1x1.rank)
  bcast_S1x1_S8192x2048_0_1 : S1x1.BroadcastsInDim S8192x2048 (![0, 1] : Fin 2 → Fin S8192x2048.rank)
  dot_S8192x1024_S256x1024_S8192x256_1_1_0_0_n_n_wf : DotDims.WF S8192x1024 S256x1024 S8192x256 [1] [1] [0] [0] [] []
  dot_S8192x256_S2048x256_S8192x2048_1_1_0_0_n_n_wf : DotDims.WF S8192x256 S2048x256 S8192x2048 [1] [1] [0] [0] [] []
  dot_S8192x2048_S256x2048_S8192x256_1_1_0_0_n_n_wf : DotDims.WF S8192x2048 S256x2048 S8192x256 [1] [1] [0] [0] [] []

variable [Facts₀]

def dot_S8192x1024_S256x1024_S8192x256_1_1_0_0_n_n : DotDims S8192x1024 S256x1024 S8192x256 where
  lhsContracting := [1]
  rhsContracting := [1]
  lhsNonContracting := [0]
  rhsNonContracting := [0]
  lhsBatch := []
  rhsBatch := []
  wf := dot_S8192x1024_S256x1024_S8192x256_1_1_0_0_n_n_wf
def dot_S8192x256_S2048x256_S8192x2048_1_1_0_0_n_n : DotDims S8192x256 S2048x256 S8192x2048 where
  lhsContracting := [1]
  rhsContracting := [1]
  lhsNonContracting := [0]
  rhsNonContracting := [0]
  lhsBatch := []
  rhsBatch := []
  wf := dot_S8192x256_S2048x256_S8192x2048_1_1_0_0_n_n_wf
def dot_S8192x2048_S256x2048_S8192x256_1_1_0_0_n_n : DotDims S8192x2048 S256x2048 S8192x256 where
  lhsContracting := [1]
  rhsContracting := [1]
  lhsNonContracting := [0]
  rhsNonContracting := [0]
  lhsBatch := []
  rhsBatch := []
  wf := dot_S8192x2048_S256x2048_S8192x256_1_1_0_0_n_n_wf

class Facts : Prop extends Facts₀ where

variable [Facts]
-- ==== Proof.Cell.lean ====
/-
  One step of a gated recurrent cell whose two weight matrices are given as products of thin factors, written as
  ONE function of the whole argument arrays over the extended reals.

  For a batch row `b` and a hidden unit `h`, with `σ x = 1 / (1 + e^(-x))`:

      pre b h  =  Σ_r (Σ_k X[b,k] · W1[r,k]) · W2[h,r]  +  Σ_r (Σ_k S[b,k] · U1[r,k]) · U2[h,r]
      z        =  σ (pre b h + g[h])
      new b h  =  z · S[b,h]  +  (σ ζ · (1 − z) + σ ν) · tanh (pre b h + u[h])

  Each projection is formed in two stages, the inner product over the wide axis first and the product with the second
  factor after it; that order is part of the definition (no sum is exchanged anywhere in this certificate), so the
  identity between the two programs needs no law of the extended reals beyond reading both at one index.
-/
import Idealize.ShloMosaic.PureOps.Ideal
import Idealize.ShloMosaic.Lib.ValueIdx

noncomputable section

open scoped BigOperators

namespace Cert.Cell

open Idealize.ShloMosaic Idealize.ShloMosaic.ValueIdx

/-- Row `b` of `X` pushed through two thin factors stored row-major by OUTPUT unit, `(X · Pᵀ · Qᵀ)[b, h]`: first
    the `R` inner products of the row with the rows of `P`, then their combination by row `h` of `Q`. -/
def twoStage {B D R H : ℕ} (X : (⟨2, ![B, D]⟩ : Shape).Idx → EReal) (P : (⟨2, ![R, D]⟩ : Shape).Idx → EReal)
    (Q : (⟨2, ![H, R]⟩ : Shape).Idx → EReal) (b : Fin B) (h : Fin H) : EReal :=
  ∑ r : Fin R, (∑ k : Fin D, X (ix2 b k) * P (ix2 r k)) * Q (ix2 h r)

/-- The same two stages when the factors arrive already transposed (contraction axis first), as a matrix unit
    consumes them: `(X · P' · Q')[b, h]`. -/
def twoStageT {B D R H : ℕ} (X : (⟨2, ![B, D]⟩ : Shape).Idx → EReal) (P' : (⟨2, ![D, R]⟩ : Shape).Idx → EReal)
    (Q' : (⟨2, ![R, H]⟩ : Shape).Idx → EReal) (b : Fin B) (h : Fin H) : EReal :=
  ∑ r : Fin R, (∑ k : Fin D, X (ix2 b k) * P' (ix2 k r)) * Q' (ix2 r h)

/-- The two-stage projection of a row of a TILE through transposed factors is the two-stage projection of the row of
    the whole array it was cut from through the factors themselves, entry by entry: the sums are the same sums. -/
theorem twoStageT_eq {B B' D R H : ℕ} (X : (⟨2, ![B, D]⟩ : Shape).Idx → EReal) (P : (⟨2, ![R, D]⟩ : Shape).Idx → EReal)
    (Q : (⟨2, ![H, R]⟩ : Shape).Idx → EReal) (X' : (⟨2, ![B', D]⟩ : Shape).Idx → EReal)
    (P' : (⟨2, ![D, R]⟩ : Shape).Idx → EReal) (Q' : (⟨2, ![R, H]⟩ : Shape).Idx → EReal) (b : Fin B) (b' : Fin B')
    (h : Fin H) (hX : ∀ k : Fin D, X' (ix2 b' k) = X (ix2 b k))
    (hP : ∀ (k : Fin D) (r : Fin R), P' (ix2 k r) = P (ix2 r k))
    (hQ : ∀ r : Fin R, Q' (ix2 r h) = Q (ix2 h r)) :
    twoStageT X' P' Q' b' h = twoStage X P Q b h := by
  unfold twoStageT twoStage
  refine Finset.sum_congr rfl fun r _ => ?_
  rw [hQ r]
  exact congrArg (· * Q (ix2 h r)) (Finset.sum_congr rfl fun k _ => by rw [hX k, hP k r])

/-- The gate arithmetic on one entry: `pre` the shared pre-activation, `s` the old state's entry, `g` and `u` the
    two biases at the unit, `ζ` and `ν` the two scalars. -/
def blend (pre s g u ζ ν : EReal) : EReal :=
  Ideal.logistic (pre + g) * s
    + (Ideal.logistic ζ * (1 - Ideal.logistic (pre + g)) + Ideal.logistic ν) * Ideal.tanh (pre + u)

/-- The new state, entry `(b, h)`, from the arguments' entries. -/
def entry (X : (⟨2, ![8192, 1024]⟩ : Shape).Idx → EReal) (S : (⟨2, ![8192, 2048]⟩ : Shape).Idx → EReal)
    (W1 : (⟨2, ![256, 1024]⟩ : Shape).Idx → EReal) (W2 : (⟨2, ![2048, 256]⟩ : Shape).Idx → EReal)
    (U1 : (⟨2, ![256, 2048]⟩ : Shape).Idx → EReal) (U2 : (⟨2, ![2048, 256]⟩ : Shape).Idx → EReal)
    (g u : (⟨2, ![1, 2048]⟩ : Shape).Idx → EReal) (ζ ν : (⟨2, ![1, 1]⟩ : Shape).Idx → EReal)
    (b : Fin 8192) (h : Fin 2048) : EReal :=
  blend (twoStage X W1 W2 b h + twoStage S U1 U2 b h) (S (ix2 b h)) (g (ix2 (0 : Fin 1) h)) (u (ix2 (0 : Fin 1) h))
    (ζ (ix2 (0 : Fin 1) (0 : Fin 1))) (ν (ix2 (0 : Fin 1) (0 : Fin 1)))

/-- The new state as a whole array. -/
def newState (X : (⟨2, ![8192, 1024]⟩ : Shape).Idx → EReal) (S : (⟨2, ![8192, 2048]⟩ : Shape).Idx → EReal)
    (W1 : (⟨2, ![256, 1024]⟩ : Shape).Idx → EReal) (W2 : (⟨2, ![2048, 256]⟩ : Shape).Idx → EReal)
    (U1 : (⟨2, ![256, 2048]⟩ : Shape).Idx → EReal) (U2 : (⟨2, ![2048, 256]⟩ : Shape).Idx → EReal)
    (g u : (⟨2, ![1, 2048]⟩ : Shape).Idx → EReal) (ζ ν : (⟨2, ![1, 1]⟩ : Shape).Idx → EReal) :
    (⟨2, ![8192, 2048]⟩ : Shape).Idx → EReal :=
  fun i => entry X S W1 W2 U1 U2 g u ζ ν (i 0) (i 1)

/-- At an index given by its coordinates the array reads the entry. -/
theorem newState_ix2 (X : (⟨2, ![8192, 1024]⟩ : Shape).Idx → EReal) (S : (⟨2, ![8192, 2048]⟩ : Shape).Idx → EReal)
    (W1 : (⟨2, ![256, 1024]⟩ : Shape).Idx → EReal) (W2 : (⟨2, ![2048, 256]⟩ : Shape).Idx → EReal)
    (U1 : (⟨2, ![256, 2048]⟩ : Shape).Idx → EReal) (U2 : (⟨2, ![2048, 256]⟩ : Shape).Idx → EReal)
    (g u : (⟨2, ![1, 2048]⟩ : Shape).Idx → EReal) (ζ ν : (⟨2, ![1, 1]⟩ : Shape).Idx → EReal)
    (b : Fin 8192) (h : Fin 2048) :
    newState X S W1 W2 U1 U2 g u ζ ν (ix2 b h) = entry X S W1 W2 U1 U2 g u ζ ν b h := rfl

end Cert.Cell

end
-- ==== Proof.LibPlainMatmul.lean ====
/-
  A matrix unit's product of an `m×k` by a `k×n` operand into a zero accumulator, over the extended reals, read at one
  entry: the plain sum over the contracted coordinate, `Σ_c A[a,c] · B[c,b]`. The contraction index of the dimension
  numbers `<[1], [0], [0], [1]>` is a one-axis index; the library's lemma for the host's product with the same
  dimension numbers re-indexes it through its one coordinate, and over the extended reals the matrix unit's product
  into zero and the host's product are the same sum over that index, so the host lemma carries over.
-/
import Idealize.ShloMosaic.Lib.StackMember
import Idealize.ShloMosaic.PureOps.Ideal.Laws

noncomputable section

open scoped BigOperators

namespace Cert.Lib.PlainMatmul

open Idealize.ShloMosaic Idealize.ShloMosaic.ValueIdx

/-- `tpu.matmul` with the plain dimension numbers into the zero splat, at entry `(a, b)`: `Σ_c A[a,c] · B[c,b]`
    (whatever the two operand formats: a format change is the identity on extended reals). -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have h := StackMember.dotGeneral_plain_apply prec A B a b
  simp only [Host.dotGeneral] at h
  rw [Ideal.dotGeneral_apply] at h
  simp only [matmul]
  rw [Ideal.matmul_constant_zero_apply]
  exact h

end Cert.Lib.PlainMatmul

end
-- ==== Proof.BlockBody.lean ====
/-
  What the kernel's body computes on one tile of 256 batch rows, read at one entry `(p, q)` of the tile, over the
  extended reals. The body forms each projection by two matrix-unit products into zero accumulators (the operands'
  narrowing to bf16 is the identity here), so at an entry each is the two-stage sum of `Cell.twoStageT` over the
  already-transposed factors; the two bias rows and the two scalars are broadcast over the tile, so at an entry they
  read row `0` (and column `0`); the rest is the gate arithmetic of `Cell.blend`, the constant `1.0` being one.
-/
import proofs.«131078_j29222957482088_1_alg».proof.Proof.Gen.KernelIdeal.Frame
import proofs.«131078_j29222957482088_1_alg».proof.Proof.Cell
import proofs.«131078_j29222957482088_1_alg».proof.Proof.LibPlainMatmul
import Idealize.ShloMosaic.Lib.Pipeline.Value
import Idealize.ShloMosaic.Lib.ValueLayout
import Idealize.ShloMosaic.Lib.IdealHost

noncomputable section

open scoped BigOperators

namespace Cert.KernelIdeal.Body

open Cert.KernelIdeal Cert.KernelIdeal.Gen Idealize.ShloMosaic Idealize.ShloMosaic.ValueIdx

/-- The zero offsets of every load and of the store, as a constant function. -/
theorem hz : (![0, 0] : Fin 2 → Nat) = fun _ => 0 := funext fun a => by fin_cases a <;> rfl

/-! ## The three products at an entry -/

/-- Tile rows against the first input factor: `Σ_k A[p,k] · B[k,r]`. -/
theorem prod_in (A : FVec Ideal S256x1024 .bf16) (B : FVec Ideal S1024x256 .bf16) (p r : Fin 256) :
    matmul dot_S256x1024_S1024x256_S256x256_1_0_0_1_n_n none A B (constant S256x256 .f32 0x00000000#32) (ix2 p r)
      = ∑ k : Fin 1024, A (ix2 p k) * B (ix2 k r) :=
  Cert.Lib.PlainMatmul.matmul_plain_zero_apply none A B p r

/-- Tile rows of the old state against the first state factor: `Σ_k A[p,k] · B[k,r]`. -/
theorem prod_st (A : FVec Ideal S256x2048 .bf16) (B : FVec Ideal S2048x256 .bf16) (p r : Fin 256) :
    matmul dot_S256x2048_S2048x256_S256x256_1_0_0_1_n_n none A B (constant S256x256 .f32 0x00000000#32) (ix2 p r)
      = ∑ k : Fin 2048, A (ix2 p k) * B (ix2 k r) :=
  Cert.Lib.PlainMatmul.matmul_plain_zero_apply none A B p r

/-- The thin intermediate against a second factor: `Σ_r A[p,r] · B[r,q]`. -/
theorem prod_out (A : FVec Ideal S256x256 .bf16) (B : FVec Ideal S256x2048 .bf16) (p : Fin 256) (q : Fin 2048) :
    matmul dot_S256x256_S256x2048_S256x2048_1_0_0_1_n_n none A B (constant S256x2048 .f32 0x00000000#32) (ix2 p q)
      = ∑ r : Fin 256, A (ix2 p r) * B (ix2 r q) :=
  Cert.Lib.PlainMatmul.matmul_plain_zero_apply none A B p q

/-! ## The broadcasts at an entry -/

/-- A bias row broadcast over the tile reads the row at the column. -/
theorem row_apply (v : FVec Ideal S1x2048 .f32) (p : Fin 256) (q : Fin 2048) :
    broadcastTo S256x2048 v broadcasts_S1x2048_S256x2048 (ix2 p q) = v (ix2 (0 : Fin 1) q) :=
  broadcastTo_1b_ab_apply v broadcasts_S1x2048_S256x2048 p q

/-- A one-entry array broadcast over the tile reads its entry. -/
theorem one_apply (v : FVec Ideal S1x1 .f32) (p : Fin 256) (q : Fin 2048) :
    broadcastTo S256x2048 v broadcasts_S1x1_S256x2048 (ix2 p q) = v (ix2 (0 : Fin 1) (0 : Fin 1)) := by
  refine broadcastTo_apply v broadcasts_S1x1_S256x2048 (ix2 p q) (ix2 (0 : Fin 1) (0 : Fin 1)) fun ax => ?_
  match ax with
  | ⟨0, _⟩ => show (0 : ℕ) = if (1 : ℕ) = 1 then 0 else _; rw [if_pos rfl]
  | ⟨1, _⟩ => show (0 : ℕ) = if (1 : ℕ) = 1 then 0 else _; rw [if_pos rfl]

/-! ## The payloads at an entry -/

/-- The shared pre-activation of the tile at `(p, q)`: the two two-stage projections added. -/
theorem pre_apply (v0 : FVec Ideal S256x1024 .f32) (v2 : FVec Ideal S256x2048 .f32) (v4 : FVec Ideal S1024x256 .f32)
    (v7 : FVec Ideal S256x2048 .f32) (v10 : FVec Ideal S2048x256 .f32) (v13 : FVec Ideal S256x2048 .f32)
    (p : Fin 256) (q : Fin 2048) :
    k0_pay2 (F := Ideal) v0 v2 v4 v7 v10 v13 (ix2 p q)
      = Cell.twoStageT v0 v4 v7 p q + Cell.twoStageT v2 v10 v13 p q := by
  unfold k0_pay2
  simp only [shapeCast_self, addf_apply, prod_out, truncf_apply, prod_in, prod_st]
  rfl

/-- The tile the body stores, at `(p, q)`. -/
theorem out_apply (x0 : FVec Ideal S256x1024 .f32) (x1 : FVec Ideal S256x2048 .f32) (x2 : FVec Ideal S1024x256 .f32)
    (x3 : FVec Ideal S256x2048 .f32) (x4 : FVec Ideal S2048x256 .f32) (x5 : FVec Ideal S256x2048 .f32)
    (x6 x7 : FVec Ideal S1x2048 .f32) (x8 x9 : FVec Ideal S1x1 .f32) (p : Fin 256) (q : Fin 2048) :
    out0_10 (F := Ideal) x0 x1 x2 x3 x4 x5 x6 x7 x8 x9 (ix2 p q)
      = Cell.blend (Cell.twoStageT x0 x2 x3 p q + Cell.twoStageT x1 x4 x5 p q) (x1 (ix2 p q))
          (x6 (ix2 (0 : Fin 1) q)) (x7 (ix2 (0 : Fin 1) q))
          (x8 (ix2 (0 : Fin 1) (0 : Fin 1))) (x9 (ix2 (0 : Fin 1) (0 : Fin 1))) := by
  unfold out0_10
  rw [View.canon_unit_zero hz]
  simp only [View.ld_unit_zero (S := S256x1024) hz, View.ld_unit_zero (S := S256x2048) hz,
    View.ld_unit_zero (S := S1024x256) hz, View.ld_unit_zero (S := S2048x256) hz,
    View.ld_unit_zero (S := S1x2048) hz, View.ld_unit_zero (S := S1x1) hz]
  unfold k0_pay1 k0_pay3 k0_pay4 k0_pay5
  simp only [addf_apply, mulf_apply, subf_apply, broadcast_apply, logistic, tanh, row_apply, one_apply, pre_apply,
    Ideal.logistic_def, Ideal.tanh_def, Ideal.ofBits_def, Ideal.ofBits_one_f32]
  rfl

/-! ## The tile against the whole arrays -/

/-- If the ten tiles the body loads are what the pipeline stages at grid point `n` — rows `256 n … 256 n + 255` of the
    input and of the old state, the four factors transposed, the biases and scalars whole — then the tile it stores is
    rows `256 n … 256 n + 255` of `Cell.newState` of the whole arrays. -/
theorem tile_eq (n : ℕ) (hn : n < 32)
    (X : FVec Ideal S8192x1024 .f32) (S : FVec Ideal S8192x2048 .f32) (W1 : FVec Ideal S256x1024 .f32)
    (W2 : FVec Ideal S2048x256 .f32) (U1 : FVec Ideal S256x2048 .f32) (U2 : FVec Ideal S2048x256 .f32)
    (g u : FVec Ideal S1x2048 .f32) (ζ ν : FVec Ideal S1x1 .f32)
    (x0 : FVec Ideal S256x1024 .f32) (x1 : FVec Ideal S256x2048 .f32) (x2 : FVec Ideal S1024x256 .f32)
    (x3 : FVec Ideal S256x2048 .f32) (x4 : FVec Ideal S2048x256 .f32) (x5 : FVec Ideal S256x2048 .f32)
    (x6 x7 : FVec Ideal S1x2048 .f32) (x8 x9 : FVec Ideal S1x1 .f32)
    (h0 : ∀ (p : Fin 256) (k : Fin 1024), x0 (ix2 p k) = X (ix2 (⟨n * 256 + p.val, by omega⟩ : Fin 8192) k))
    (h1 : ∀ (p : Fin 256) (k : Fin 2048), x1 (ix2 p k) = S (ix2 (⟨n * 256 + p.val, by omega⟩ : Fin 8192) k))
    (h2 : ∀ (k : Fin 1024) (r : Fin 256), x2 (ix2 k r) = W1 (ix2 r k))
    (h3 : ∀ (r : Fin 256) (q : Fin 2048), x3 (ix2 r q) = W2 (ix2 q r))
    (h4 : ∀ (k : Fin 2048) (r : Fin 256), x4 (ix2 k r) = U1 (ix2 r k))
    (h5 : ∀ (r : Fin 256) (q : Fin 2048), x5 (ix2 r q) = U2 (ix2 q r))
    (h6 : ∀ q : Fin 2048, x6 (ix2 (0 : Fin 1) q) = g (ix2 (0 : Fin 1) q))
    (h7 : ∀ q : Fin 2048, x7 (ix2 (0 : Fin 1) q) = u (ix2 (0 : Fin 1) q))
    (h8 : x8 (ix2 (0 : Fin 1) (0 : Fin 1)) = ζ (ix2 (0 : Fin 1) (0 : Fin 1)))
    (h9 : x9 (ix2 (0 : Fin 1) (0 : Fin 1)) = ν (ix2 (0 : Fin 1) (0 : Fin 1)))
    (p : Fin 256) (q : Fin 2048) :
    out0_10 (F := Ideal) x0 x1 x2 x3 x4 x5 x6 x7 x8 x9 (ix2 p q)
      = Cell.newState X S W1 W2 U1 U2 g u ζ ν (ix2 (⟨n * 256 + p.val, by omega⟩ : Fin 8192) q) := by
  rw [out_apply, Cell.newState_ix2]
  unfold Cell.entry
  rw [Cell.twoStageT_eq X W1 W2 x0 x2 x3 _ p q (h0 p) h2 (fun r => h3 r q),
    Cell.twoStageT_eq S U1 U2 x1 x4 x5 _ p q (h1 p) h4 (fun r => h5 r q), h1 p q, h6 q, h7 q, h8, h9]

end Cert.KernelIdeal.Body

end
-- ==== Proof.KernelState.lean ====
/-
  The kernel's result array after the run, as one function of the arguments: `Cell.newState`.

  The grid has 32 points; point `t` is handed rows `256 t … 256 t + 255` of the input and of the old state, and the four
  factors, the two bias rows and the two scalars whole (the factors as the host transposed them before the launch), and
  writes rows `256 t … 256 t + 255` of the result. So the tile a point writes back is its block of `Cell.newState`
  (`Body.tile_eq`, once each staged tile is read off its array), the 32 row blocks cover the result array, and the
  array ends holding `Cell.newState` of the arguments.
-/
import proofs.«131078_j29222957482088_1_alg».proof.Proof.Gen.KernelIdeal.Value
import proofs.«131078_j29222957482088_1_alg».proof.Proof.BlockBody
import Idealize.ShloMosaic.Lib.Pipeline.Value
import Idealize.ShloMosaic.Lib.ValueLayout
import Idealize.ShloMosaic.Lib.StableHlo.Run

noncomputable section

namespace Cert.KernelIdeal.State

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## Which block each window hands to a grid point -/

/-- The input, the old state and the result move with the grid point along the rows … -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0 :=
  (by decide +kernel : ∀ t : Fin grid0.N, _)

/-- … and every other window hands over its one block, the whole array, at every point. -/
theorem idx_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- The grid has 32 points. -/
theorem point_lt (t : Fin cfg0.N) : t.val < 32 :=
  lt_of_lt_of_eq t.isLt (show cfg0.N = 32 from N_0)

/-! ## The factors as the region finds them: transposed by the host -/

theorem V_w1 (c : Dev nD) : (V m c main_v0 : S1024x256.Idx → EReal)
    = transpose S1024x256 [1, 0] (m ((c : Thread nD τ).loc main_arg2)) transposes_S256x1024_S1024x256_1_0 := by
  dsimp only [V, hostOps0]; after_results
theorem V_w2 (c : Dev nD) : (V m c main_v1 : S256x2048.Idx → EReal)
    = transpose S256x2048 [1, 0] (m ((c : Thread nD τ).loc main_arg3)) transposes_S2048x256_S256x2048_1_0 := by
  dsimp only [V, hostOps0]; after_results
theorem V_u1 (c : Dev nD) : (V m c main_v2 : S2048x256.Idx → EReal)
    = transpose S2048x256 [1, 0] (m ((c : Thread nD τ).loc main_arg4)) transposes_S256x2048_S2048x256_1_0 := by
  dsimp only [V, hostOps0]; after_results
theorem V_u2 (c : Dev nD) : (V m c main_v3 : S256x2048.Idx → EReal)
    = transpose S256x2048 [1, 0] (m ((c : Thread nD τ).loc main_arg5)) transposes_S2048x256_S256x2048_1_0 := by
  dsimp only [V, hostOps0]; after_results

/-! ## Each staged tile, read off its array -/

/-- The input tile at point `t` is rows `256 t …` of the input. -/
theorem in_tile (c : Dev nD) (t : Fin cfg0.N) (hn : t.val < 32) (p : Fin 256) (k : Fin 1024) :
    (iblk m c 0 t : Vec Ideal S256x1024 .f32) (ix2 p k)
      = ((m ((c : Thread nD τ).loc main_arg0)) : S8192x1024.Idx → EReal) (ix2 (⟨t.val * 256 + p.val, by omega⟩ : Fin 8192) k) := by
  unfold iblk
  rw [View.read_apply]
  show V m c main_arg0 _ = _
  rw [V_main_arg0]
  congr 1
  funext a
  apply Fin.ext
  obtain ⟨e0, e1, -⟩ := idx_rows t
  match a with
  | ⟨0, _⟩ => show win0_0.index t (0 : Fin 2) * 256 + 1 * p.val = t.val * 256 + p.val; rw [e0]; omega
  | ⟨1, _⟩ => show win0_0.index t (1 : Fin 2) * 1024 + 1 * k.val = k.val; rw [e1]; omega

/-- The state tile at point `t` is rows `256 t …` of the old state. -/
theorem st_tile (c : Dev nD) (t : Fin cfg0.N) (hn : t.val < 32) (p : Fin 256) (k : Fin 2048) :
    (iblk m c 1 t : Vec Ideal S256x2048 .f32) (ix2 p k)
      = ((m ((c : Thread nD τ).loc main_arg1)) : S8192x2048.Idx → EReal) (ix2 (⟨t.val * 256 + p.val, by omega⟩ : Fin 8192) k) := by
  unfold iblk
  rw [View.read_apply]
  show V m c main_arg1 _ = _
  rw [V_main_arg1]
  congr 1
  funext a
  apply Fin.ext
  obtain ⟨-, -, e0, e1, -⟩ := idx_rows t
  match a with
  | ⟨0, _⟩ => show win0_1.index t (0 : Fin 2) * 256 + 1 * p.val = t.val * 256 + p.val; rw [e0]; omega
  | ⟨1, _⟩ => show win0_1.index t (1 : Fin 2) * 2048 + 1 * k.val = k.val; rw [e1]; omega

/-- The first input factor's tile is the factor transposed. -/
theorem w1_tile (c : Dev nD) (t : Fin cfg0.N) (k : Fin 1024) (r : Fin 256) :
    (iblk m c 2 t : Vec Ideal S1024x256 .f32) (ix2 k r) = ((m ((c : Thread nD τ).loc main_arg2)) : S256x1024.Idx → EReal) (ix2 r k) := by
  unfold iblk
  rw [View.read_apply]
  show V m c main_v0 _ = _
  rw [V_w1]
  refine Eq.trans ?_ (transpose_ix2_apply _ transposes_S256x1024_S1024x256_1_0 k r)
  congr 1
  funext a
  apply Fin.ext
  obtain ⟨e20, e21, e30, e31, e40, e41, e50, e51, e60, e61, e70, e71, e80, e81, e90, e91⟩ := idx_whole t
  match a with
  | ⟨0, _⟩ => show win0_2.index t (0 : Fin 2) * 1024 + 1 * k.val = k.val; rw [e20]; omega
  | ⟨1, _⟩ => show win0_2.index t (1 : Fin 2) * 256 + 1 * r.val = r.val; rw [e21]; omega

/-- The second input factor's tile is the factor transposed. -/
theorem w2_tile (c : Dev nD) (t : Fin cfg0.N) (r : Fin 256) (q : Fin 2048) :
    (iblk m c 3 t : Vec Ideal S256x2048 .f32) (ix2 r q) = ((m ((c : Thread nD τ).loc main_arg3)) : S2048x256.Idx → EReal) (ix2 q r) := by
  unfold iblk
  rw [View.read_apply]
  show V m c main_v1 _ = _
  rw [V_w2]
  refine Eq.trans ?_ (transpose_ix2_apply _ transposes_S2048x256_S256x2048_1_0 r q)
  congr 1
  funext a
  apply Fin.ext
  obtain ⟨e20, e21, e30, e31, e40, e41, e50, e51, e60, e61, e70, e71, e80, e81, e90, e91⟩ := idx_whole t
  match a with
  | ⟨0, _⟩ => show win0_3.index t (0 : Fin 2) * 256 + 1 * r.val = r.val; rw [e30]; omega
  | ⟨1, _⟩ => show win0_3.index t (1 : Fin 2) * 2048 + 1 * q.val = q.val; rw [e31]; omega

/-- The first state factor's tile is the factor transposed. -/
theorem u1_tile (c : Dev nD) (t : Fin cfg0.N) (k : Fin 2048) (r : Fin 256) :
    (iblk m c 4 t : Vec Ideal S2048x256 .f32) (ix2 k r) = ((m ((c : Thread nD τ).loc main_arg4)) : S256x2048.Idx → EReal) (ix2 r k) := by
  unfold iblk
  rw [View.read_apply]
  show V m c main_v2 _ = _
  rw [V_u1]
  refine Eq.trans ?_ (transpose_ix2_apply _ transposes_S256x2048_S2048x256_1_0 k r)
  congr 1
  funext a
  apply Fin.ext
  obtain ⟨e20, e21, e30, e31, e40, e41, e50, e51, e60, e61, e70, e71, e80, e81, e90, e91⟩ := idx_whole t
  match a with
  | ⟨0, _⟩ => show win0_4.index t (0 : Fin 2) * 2048 + 1 * k.val = k.val; rw [e40]; omega
  | ⟨1, _⟩ => show win0_4.index t (1 : Fin 2) * 256 + 1 * r.val = r.val; rw [e41]; omega

/-- The second state factor's tile is the factor transposed. -/
theorem u2_tile (c : Dev nD) (t : Fin cfg0.N) (r : Fin 256) (q : Fin 2048) :
    (iblk m c 5 t : Vec Ideal S256x2048 .f32) (ix2 r q) = ((m ((c : Thread nD τ).loc main_arg5)) : S2048x256.Idx → EReal) (ix2 q r) := by
  unfold iblk
  rw [View.read_apply]
  show V m c main_v3 _ = _
  rw [V_u2]
  refine Eq.trans ?_ (transpose_ix2_apply _ transposes_S2048x256_S256x2048_1_0 r q)
  congr 1
  funext a
  apply Fin.ext
  obtain ⟨e20, e21, e30, e31, e40, e41, e50, e51, e60, e61, e70, e71, e80, e81, e90, e91⟩ := idx_whole t
  match a with
  | ⟨0, _⟩ => show win0_5.index t (0 : Fin 2) * 256 + 1 * r.val = r.val; rw [e50]; omega
  | ⟨1, _⟩ => show win0_5.index t (1 : Fin 2) * 2048 + 1 * q.val = q.val; rw [e51]; omega

/-- The gate bias's tile is the bias row. -/
theorem g_tile (c : Dev nD) (t : Fin cfg0.N) (q : Fin 2048) :
    (iblk m c 6 t : Vec Ideal S1x2048 .f32) (ix2 (0 : Fin 1) q) = ((m ((c : Thread nD τ).loc main_arg6)) : S1x2048.Idx → EReal) (ix2 (0 : Fin 1) q) := by
  unfold iblk
  rw [View.read_apply]
  show V m c main_arg6 _ = _
  rw [V_main_arg6]
  congr 1
  funext a
  apply Fin.ext
  obtain ⟨e20, e21, e30, e31, e40, e41, e50, e51, e60, e61, e70, e71, e80, e81, e90, e91⟩ := idx_whole t
  match a with
  | ⟨0, _⟩ => show win0_6.index t (0 : Fin 2) * 1 + 1 * 0 = 0; rw [e60]
  | ⟨1, _⟩ => show win0_6.index t (1 : Fin 2) * 2048 + 1 * q.val = q.val; rw [e61]; omega

/-- The update bias's tile is the bias row. -/
theorem u_tile (c : Dev nD) (t : Fin cfg0.N) (q : Fin 2048) :
    (iblk m c 7 t : Vec Ideal S1x2048 .f32) (ix2 (0 : Fin 1) q) = ((m ((c : Thread nD τ).loc main_arg7)) : S1x2048.Idx → EReal) (ix2 (0 : Fin 1) q) := by
  unfold iblk
  rw [View.read_apply]
  show V m c main_arg7 _ = _
  rw [V_main_arg7]
  congr 1
  funext a
  apply Fin.ext
  obtain ⟨e20, e21, e30, e31, e40, e41, e50, e51, e60, e61, e70, e71, e80, e81, e90, e91⟩ := idx_whole t
  match a with
  | ⟨0, _⟩ => show win0_7.index t (0 : Fin 2) * 1 + 1 * 0 = 0; rw [e70]
  | ⟨1, _⟩ => show win0_7.index t (1 : Fin 2) * 2048 + 1 * q.val = q.val; rw [e71]; omega

/-- The first scalar's tile is the scalar. -/
theorem zeta_tile (c : Dev nD) (t : Fin cfg0.N) :
    (iblk m c 8 t : Vec Ideal S1x1 .f32) (ix2 (0 : Fin 1) (0 : Fin 1)) = ((m ((c : Thread nD τ).loc main_arg8)) : S1x1.Idx → EReal) (ix2 (0 : Fin 1) (0 : Fin 1)) := by
  unfold iblk
  rw [View.read_apply]
  show V m c main_arg8 _ = _
  rw [V_main_arg8]
  congr 1
  funext a
  apply Fin.ext
  obtain ⟨e20, e21, e30, e31, e40, e41, e50, e51, e60, e61, e70, e71, e80, e81, e90, e91⟩ := idx_whole t
  match a with
  | ⟨0, _⟩ => show win0_8.index t (0 : Fin 2) * 1 + 1 * 0 = 0; rw [e80]
  | ⟨1, _⟩ => show win0_8.index t (1 : Fin 2) * 1 + 1 * 0 = 0; rw [e81]

/-- The second scalar's tile is the scalar. -/
theorem nu_tile (c : Dev nD) (t : Fin cfg0.N) :
    (iblk m c 9 t : Vec Ideal S1x1 .f32) (ix2 (0 : Fin 1) (0 : Fin 1)) = ((m ((c : Thread nD τ).loc main_arg9)) : S1x1.Idx → EReal) (ix2 (0 : Fin 1) (0 : Fin 1)) := by
  unfold iblk
  rw [View.read_apply]
  show V m c main_arg9 _ = _
  rw [V_main_arg9]
  congr 1
  funext a
  apply Fin.ext
  obtain ⟨e20, e21, e30, e31, e40, e41, e50, e51, e60, e61, e70, e71, e80, e81, e90, e91⟩ := idx_whole t
  match a with
  | ⟨0, _⟩ => show win0_9.index t (0 : Fin 2) * 1 + 1 * 0 = 0; rw [e90]
  | ⟨1, _⟩ => show win0_9.index t (1 : Fin 2) * 1 + 1 * 0 = 0; rw [e91]

/-! ## The result array -/

/-- The new state of the arguments as launched. -/
abbrev state (c : Dev nD) : Buf (Elt Ideal) ((c : Thread nD τ).loc main_v4) :=
  Cell.newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- What point `t` writes back is its row block of `state`. -/
theorem flushed_eq (c : Dev nD) (t : Fin cfg0.N) :
    (dats m 0 c).flushed 10 t = ((cfg0.win 10).blk t).view.read (Elt Ideal) (state m c) := by
  have hn : t.val < 32 := point_lt t
  rw [Value.flushed10]
  funext y
  obtain ⟨p, q, rfl⟩ : ∃ (p : Fin 256) (q : Fin 2048), y = ix2 p q := ⟨y 0, y 1, eq_ix2 y⟩
  rw [View.read_apply]
  have he : ((cfg0.win 10).blk t).view.emb (ix2 p q) = ix2 (⟨t.val * 256 + p.val, by omega⟩ : Fin 8192) q :=
    funext fun a => Fin.ext (by
      obtain ⟨-, -, -, -, e0, e1⟩ := idx_rows t
      match a with
      | ⟨0, _⟩ => show win0_10.index t (0 : Fin 2) * 256 + 1 * p.val = t.val * 256 + p.val; rw [e0]; omega
      | ⟨1, _⟩ => show win0_10.index t (1 : Fin 2) * 2048 + 1 * q.val = q.val; rw [e1]; omega)
  rw [he]
  exact Body.tile_eq t.val hn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (iblk m c 0 t) (iblk m c 1 t) (iblk m c 2 t) (iblk m c 3 t) (iblk m c 4 t) (iblk m c 5 t) (iblk m c 6 t)
    (iblk m c 7 t) (iblk m c 8 t) (iblk m c 9 t)
    (in_tile m c t hn) (st_tile m c t hn) (w1_tile m c t) (w2_tile m c t) (u1_tile m c t) (u2_tile m c t)
    (g_tile m c t) (u_tile m c t) (zeta_tile m c t) (nu_tile m c t) p q

/-- An index of the result array is in point `t`'s block iff each coordinate is in the block's range on its axis. -/
theorem mem_blk (t : Fin cfg0.N) (i : S8192x2048.Idx) :
    i ∈ ((cfg0.win 10).blk t).view.set ↔ ∀ a : Fin 2, win0_10.index t a * S256x2048.size a ≤ (i a).val
      ∧ (i a).val < win0_10.index t a * S256x2048.size a + S256x2048.size a := by
  show i ∈ ((View.whole main_v4).slice (win0_10.rect t)).set ↔ _
  rw [View.set_slice_whole, Rect.mem_set_unit]
  exact Iff.rfl

/-- Row `b` of the result lies in the block of point `b / 256`: the 32 row blocks cover the array. -/
theorem cover (i : S8192x2048.Idx) :
    ∃ t : Fin cfg0.N, (cfg0.win 10).flush t = true ∧ i ∈ ((cfg0.win 10).blk t).view.set := by
  have hi0 : (i 0).val < 8192 := (i 0).isLt
  have hi1 : (i 1).val < 2048 := (i 1).isLt
  obtain ⟨t, ht⟩ : ∃ t : Fin cfg0.N, t.val = (i 0).val / 256 :=
    ⟨⟨(i 0).val / 256, by rw [show cfg0.N = 32 from N_0]; omega⟩, rfl⟩
  refine ⟨t, flush0_10 t, ?_⟩
  rw [mem_blk]
  obtain ⟨-, -, -, -, e0, e1⟩ := idx_rows t
  intro a
  match a with
  | ⟨0, _⟩ =>
    show win0_10.index t (0 : Fin 2) * 256 ≤ (i 0).val ∧ (i 0).val < win0_10.index t (0 : Fin 2) * 256 + 256
    rw [e0, ht]; omega
  | ⟨1, _⟩ =>
    show win0_10.index t (1 : Fin 2) * 2048 ≤ (i 1).val ∧ (i 1).val < win0_10.index t (1 : Fin 2) * 2048 + 2048
    rw [e1]; omega

/-- After the run the result array holds `state`. -/
theorem final (c : Dev nD) : (dats m 0 c).arrAt 10 cfg0.N = state m c :=
  (dats m 0 c).arrAt_eq_of_cover 10 (state m c) (fun t _ => flushed_eq m c t) cover

/-- The kernel's run, read: the result array at `state`, the arguments unchanged. -/
theorem run : θ_run defs (onTc (τ := τ) (main (F := Ideal))) ⟨m, fun _ => 0, ρ⟩ fun r => ∀ c : Dev nD,
      r.2.mem ((c : Thread nD τ).loc main_v4) = state m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.State

end
-- ==== Proof.RefState.lean ====
/-
  The reference, read at one entry. Its program forms the two projections by two contractions each (row of the input
  against rows of the first factor, then against rows of the second), adds them, and applies the gate arithmetic with
  the logistic function spelt out as `1 / (1 + e^(-x))`. Read index by index that is `Cell.newState`: every
  contraction is a sum over its one contracted coordinate, the broadcasts of the two bias rows and of the two scalars
  read row `0` (and column `0`), the constant `1.0` is the real number one, and the spelt-out logistic is the logistic
  function of the extended reals by its definition.
-/
import proofs.«131078_j29222957482088_1_alg».proof.Proof.Gen.ReferenceIdeal.Read
import proofs.«131078_j29222957482088_1_alg».proof.Proof.Cell
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx

/-! ## The operand indices of the four contractions and of the four broadcasts, by coordinates -/

theorem lidx_v0 (b : Fin 8192) (r : Fin 256) (k : Fin 1024) : lidx_main_v0 (ix2 b r) k = ix2 b k := funext fun a => Fin.ext (by match a with | ⟨0, _⟩ => rfl | ⟨1, _⟩ => rfl)
theorem ridx_v0 (b : Fin 8192) (r : Fin 256) (k : Fin 1024) : ridx_main_v0 (ix2 b r) k = ix2 r k := funext fun a => Fin.ext (by match a with | ⟨0, _⟩ => rfl | ⟨1, _⟩ => rfl)
theorem lidx_v1 (b : Fin 8192) (h : Fin 2048) (r : Fin 256) : lidx_main_v1 (ix2 b h) r = ix2 b r := funext fun a => Fin.ext (by match a with | ⟨0, _⟩ => rfl | ⟨1, _⟩ => rfl)
theorem ridx_v1 (b : Fin 8192) (h : Fin 2048) (r : Fin 256) : ridx_main_v1 (ix2 b h) r = ix2 h r := funext fun a => Fin.ext (by match a with | ⟨0, _⟩ => rfl | ⟨1, _⟩ => rfl)
theorem lidx_v2 (b : Fin 8192) (r : Fin 256) (k : Fin 2048) : lidx_main_v2 (ix2 b r) k = ix2 b k := funext fun a => Fin.ext (by match a with | ⟨0, _⟩ => rfl | ⟨1, _⟩ => rfl)
theorem ridx_v2 (b : Fin 8192) (r : Fin 256) (k : Fin 2048) : ridx_main_v2 (ix2 b r) k = ix2 r k := funext fun a => Fin.ext (by match a with | ⟨0, _⟩ => rfl | ⟨1, _⟩ => rfl)
theorem lidx_v3 (b : Fin 8192) (h : Fin 2048) (r : Fin 256) : lidx_main_v3 (ix2 b h) r = ix2 b r := funext fun a => Fin.ext (by match a with | ⟨0, _⟩ => rfl | ⟨1, _⟩ => rfl)
theorem ridx_v3 (b : Fin 8192) (h : Fin 2048) (r : Fin 256) : ridx_main_v3 (ix2 b h) r = ix2 h r := funext fun a => Fin.ext (by match a with | ⟨0, _⟩ => rfl | ⟨1, _⟩ => rfl)
theorem idx_v5 (b : Fin 8192) (h : Fin 2048) : idx_main_v5 (ix2 b h) = ix2 (0 : Fin 1) h := funext fun a => Fin.ext (by match a with | ⟨0, _⟩ => rfl | ⟨1, _⟩ => rfl)
theorem idx_v13 (b : Fin 8192) (h : Fin 2048) : idx_main_v13 (ix2 b h) = ix2 (0 : Fin 1) h := funext fun a => Fin.ext (by match a with | ⟨0, _⟩ => rfl | ⟨1, _⟩ => rfl)
theorem idx_v25 (b : Fin 8192) (h : Fin 2048) : idx_main_v25 (ix2 b h) = ix2 (0 : Fin 1) (0 : Fin 1) := funext fun a => Fin.ext (by match a with | ⟨0, _⟩ => rfl | ⟨1, _⟩ => rfl)
theorem idx_v33 (b : Fin 8192) (h : Fin 2048) : idx_main_v33 (ix2 b h) = ix2 (0 : Fin 1) (0 : Fin 1) := funext fun a => Fin.ext (by match a with | ⟨0, _⟩ => rfl | ⟨1, _⟩ => rfl)

/-! ## The reference's result is the cell -/

/-- The reference's last stage, as a function of the ten arguments, is `Cell.newState` of them. -/
theorem result_eq (x0 : FVec Ideal S8192x1024 .f32) (x1 : FVec Ideal S8192x2048 .f32) (x2 : FVec Ideal S256x1024 .f32)
    (x3 : FVec Ideal S2048x256 .f32) (x4 : FVec Ideal S256x2048 .f32) (x5 : FVec Ideal S2048x256 .f32)
    (x6 x7 : FVec Ideal S1x2048 .f32) (x8 x9 : FVec Ideal S1x1 .f32) :
    val_main_v36 (F := Ideal) x0 x1 x2 x3 x4 x5 x6 x7 x8 x9 = Cell.newState x0 x1 x2 x3 x4 x5 x6 x7 x8 x9 := by
  funext i
  obtain ⟨b, h, rfl⟩ : ∃ (b : Fin 8192) (h : Fin 2048), i = ix2 b h := ⟨i 0, i 1, eq_ix2 i⟩
  rw [Cell.newState_ix2]
  simp only [val_main_v36_apply, val_main_v35_apply, val_main_v34_apply, val_main_v33_apply, val_main_v32_apply, val_main_v31_apply, val_main_cst_5_apply, val_main_v30_apply, val_main_v29_apply, val_main_cst_4_apply, val_main_v28_apply, val_main_v27_apply, val_main_v26_apply, val_main_v25_apply, val_main_v24_apply, val_main_v23_apply, val_main_cst_3_apply, val_main_v22_apply, val_main_v21_apply, val_main_cst_2_apply, val_main_v20_apply, val_main_v19_apply, val_main_cst_1_apply, val_main_v18_apply, val_main_v17_apply, val_main_v16_apply, val_main_v15_apply, val_main_v14_apply, val_main_v13_apply, val_main_v12_apply, val_main_v11_apply, val_main_cst_0_apply, val_main_v10_apply, val_main_v9_apply, val_main_cst_apply, val_main_v8_apply, val_main_v7_apply, val_main_v6_apply, val_main_v5_apply, val_main_v4_apply, val_main_v3_apply, val_main_v2_apply, val_main_v1_apply, val_main_v0_apply,
    lidx_v0, ridx_v0, lidx_v1, ridx_v1, lidx_v2, ridx_v2, lidx_v3, ridx_v3, idx_v5, idx_v13, idx_v25, idx_v33,
    Ideal.addf_def, Ideal.subf_def, Ideal.mulf_def, Ideal.hostDivf_def, Ideal.hostNegf_def, Ideal.negf_def,
    Ideal.hostUnary_exp_def, Ideal.hostUnary_tanh_def, Ideal.ofBits_def, Ideal.ofBits_one_f32]
  rfl

end Cert.ReferenceIdeal.RefValue

end
-- ==== Proof.lean ====
/-
  One step of a gated recurrent cell with low-rank weights: a fused kernel over tiles of 256 batch rows against the
  plain array program.

  Both programs compute, for a batch row `b` and a hidden unit `h`,

      pre   =  Σ_r (Σ_k X[b,k]·W1[r,k])·W2[h,r]  +  Σ_r (Σ_k S[b,k]·U1[r,k])·U2[h,r]
      z     =  σ (pre + g[h]),     σ x = 1 / (1 + e^(-x))
      new   =  z·S[b,h] + (σ ζ · (1 − z) + σ ν) · tanh (pre + u[h])

  (`Cell.newState`). The kernel takes the four factors transposed by the host, forms each projection on a tile by two
  matrix products into zero accumulators with the operands narrowed to bf16 (the identity over the extended reals), and
  applies the gate arithmetic with the logistic function as one operation; the reference contracts the factors on
  their second axes and spells the logistic function out. Read at one entry the two are the same sums in the same
  order and the same arithmetic, so no law of the extended reals is needed and the finiteness of the inputs is never
  used. The 32 tiles cover the result array (`State.final`); the reference's last stage is the same function
  (`RefValue.result_eq`). The kernel's idealization rewrote nothing, so the second-last claim is trivial; the three
  termination-and-arguments-unchanged claims are the two programs' runs with the result dropped.
-/
import proofs.«131078_j29222957482088_1_alg».proof.Defs
import proofs.«131078_j29222957482088_1_alg».proof.Proof.Gen.Kernel
import proofs.«131078_j29222957482088_1_alg».proof.Proof.Gen.Kernel.Skeleton
import proofs.«131078_j29222957482088_1_alg».proof.Proof.Gen.Kernel.Launch
import proofs.«131078_j29222957482088_1_alg».proof.Proof.Gen.Kernel.Points
import proofs.«131078_j29222957482088_1_alg».proof.Proof.Gen.Kernel.Frame
import proofs.«131078_j29222957482088_1_alg».proof.Proof.Gen.KernelIdeal
import proofs.«131078_j29222957482088_1_alg».proof.Proof.Gen.KernelIdeal.Skeleton
import proofs.«131078_j29222957482088_1_alg».proof.Proof.Gen.KernelIdeal.Launch
import proofs.«131078_j29222957482088_1_alg».proof.Proof.Gen.KernelIdeal.Points
import proofs.«131078_j29222957482088_1_alg».proof.Proof.Gen.KernelIdeal.Frame
import proofs.«131078_j29222957482088_1_alg».proof.Proof.Gen.ReferenceIdeal
import proofs.«131078_j29222957482088_1_alg».proof.Proof.Gen.Pre_finite_inputs
import proofs.«131078_j29222957482088_1_alg».proof.Proof.Gen.KernelIdeal.Value
import proofs.«131078_j29222957482088_1_alg».proof.Proof.Gen.ReferenceIdeal.Run
import proofs.«131078_j29222957482088_1_alg».proof.Proof.Gen.ReferenceIdeal.Read
import Idealize.ShloMosaic.Adequacy
import Idealize.ShloMosaic.Init
import proofs.«131078_j29222957482088_1_alg».proof.Proof.KernelState
import proofs.«131078_j29222957482088_1_alg».proof.Proof.RefState

noncomputable section

namespace Cert.Proof

open Idealize.ShloMosaic Idealize.SL.Sem

/-- From memories agreeing on the ten arguments both programs end with the result array at `Cell.newState` of the
    arguments: the kernel by its 32 row blocks, the reference by reading its last stage at an index. -/
theorem algebraic : Cert.algebraic_KernelIdeal_ReferenceIdeal := by
  intro m ρ m' ρ' _ hagree
  refine ⟨fun c => Cert.KernelIdeal.State.state m c, Cert.KernelIdeal.State.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [a0, a1, a2, a3, a4, a5, a6, a7, a8, a9, Cert.ReferenceIdeal.Read.val_main_v36_eq]
  exact Cert.ReferenceIdeal.RefValue.result_eq _ _ _ _ _ _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  trivial,
  algebraic⟩

end Cert.Proof

end
